-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5000x128 : Shape := ⟨2, ![5000, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 69
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S1x1, .f32⟩
  | .hbm, ⟨68, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S50000x128, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x1, .f32⟩
  | .hbm, ⟨79, _⟩ => ⟨S1x1, .f32⟩
  | .hbm, ⟨80, _⟩ => ⟨S50000x1, .f32⟩
  | .hbm, ⟨81, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Spec.lean ====
/-
  The mathematics of a graph-convolution layer followed by a two-layer perceptron, over the extended reals.

  For arrays with any number n of rows:
  * `mm l w` is the rows-by-columns product, entry (r, v) the sum over q of l (r, q) · w (q, v);
  * `addRow g b` adds the one-row array b to every row of g;
  * `relu g` clamps every entry below at the float word zero;
  * `head g r1 W1 r2 W2 r3` is  relu(relu(g + r1) · W1 + r2) · W2 + r3 .
  Every entry of `head` in row r reads g in row r only, so a block of rows of `head g …` is `head` of that block of rows
  of g: a result computed a block of rows at a time is the whole result.
  The accumulate-into-zero matrix unit product and the host's dot_general are both `mm` at the ideal values; a bias
  row broadcast over the rows and added is `addRow`; a maximum with a splat zero is `relu`; a change of float format
  is the identity.
-/
import Idealize.ShloMosaic.PureOps.Ideal.Laws
import Idealize.ShloMosaic.Lib.ValueIdx
import Idealize.ShloMosaic.Lib.ValueLayout
import Idealize.ShloMosaic.Lib.Pipeline.Value
import proofs.«123498_j60842506715481_1_alg».proof.Proof.LibDotRowsCols

noncomputable section

open scoped BigOperators

namespace Cert.Spec

open Idealize.ShloMosaic Idealize.ShloMosaic.ValueIdx Cert.Lib.DotRowsCols

variable {n K c : Nat}

/-- The rows-by-columns product of an [n, K] array with a [K, c] array. -/
def mm (l : (⟨2, ![n, K]⟩ : Shape).Idx → EReal) (w : (⟨2, ![K, c]⟩ : Shape).Idx → EReal) :
    (⟨2, ![n, c]⟩ : Shape).Idx → EReal :=
  fun j => ∑ q : Fin K, l (ix2 (j 0) q) * w (ix2 q (j 1))

/-- The one-row array b added to every row of g. -/
def addRow (g : (⟨2, ![n, c]⟩ : Shape).Idx → EReal) (b : (⟨2, ![1, c]⟩ : Shape).Idx → EReal) :
    (⟨2, ![n, c]⟩ : Shape).Idx → EReal :=
  fun j => g j + b (ix2 (0 : Fin 1) (j 1))

/-- Every entry clamped below at the float word zero. -/
def relu (g : (⟨2, ![n, c]⟩ : Shape).Idx → EReal) : (⟨2, ![n, c]⟩ : Shape).Idx → EReal :=
  fun j => max (g j) (Ideal.ofBits .f32 0x00000000#32)

/-- relu(relu(g + r1) · W1 + r2) · W2 + r3, for an array g of n rows of 128 entries. -/
def head (g : (⟨2, ![n, 128]⟩ : Shape).Idx → EReal) (r1 : (⟨2, ![1, 128]⟩ : Shape).Idx → EReal)
    (W1 : (⟨2, ![128, 128]⟩ : Shape).Idx → EReal) (r2 : (⟨2, ![1, 128]⟩ : Shape).Idx → EReal)
    (W2 : (⟨2, ![128, 1]⟩ : Shape).Idx → EReal) (r3 : (⟨2, ![1, 1]⟩ : Shape).Idx → EReal) :
    (⟨2, ![n, 1]⟩ : Shape).Idx → EReal :=
  addRow (mm (relu (addRow (mm (relu (addRow g r1)) W1) r2)) W2) r3

/-- An entry of `head` reads g only in the entry's own row: two arrays that agree on one row each (at possibly
    different positions a, a') give the same entry there. -/
theorem head_row {n' : Nat} (g : (⟨2, ![n, 128]⟩ : Shape).Idx → EReal) (g' : (⟨2, ![n', 128]⟩ : Shape).Idx → EReal)
    (r1 : (⟨2, ![1, 128]⟩ : Shape).Idx → EReal) (W1 : (⟨2, ![128, 128]⟩ : Shape).Idx → EReal)
    (r2 : (⟨2, ![1, 128]⟩ : Shape).Idx → EReal) (W2 : (⟨2, ![128, 1]⟩ : Shape).Idx → EReal)
    (r3 : (⟨2, ![1, 1]⟩ : Shape).Idx → EReal)
    (a : Fin n) (a' : Fin n') (v v' : Fin 1)
    (hrow : ∀ q : Fin 128, g (ix2 a q) = g' (ix2 a' q)) :
    head g r1 W1 r2 W2 r3 (ix2 a v) = head g' r1 W1 r2 W2 r3 (ix2 a' v') := by
  obtain rfl : v = v' := Subsingleton.elim _ _
  show (∑ k : Fin 128, max ((∑ j : Fin 128, max (g (ix2 a j) + r1 (ix2 (0 : Fin 1) j)) (Ideal.ofBits .f32 0x00000000#32) * W1 (ix2 j k))
          + r2 (ix2 (0 : Fin 1) k)) (Ideal.ofBits .f32 0x00000000#32) * W2 (ix2 k v)) + r3 (ix2 (0 : Fin 1) v)
      = (∑ k : Fin 128, max ((∑ j : Fin 128, max (g' (ix2 a' j) + r1 (ix2 (0 : Fin 1) j)) (Ideal.ofBits .f32 0x00000000#32) * W1 (ix2 j k))
          + r2 (ix2 (0 : Fin 1) k)) (Ideal.ofBits .f32 0x00000000#32) * W2 (ix2 k v)) + r3 (ix2 (0 : Fin 1) v)
  simp only [hrow]

/-- An entry of a product reads the left operand in the entry's row and the right operand in the entry's column only. -/
theorem mm_congr {n' : Nat} (l : (⟨2, ![n, K]⟩ : Shape).Idx → EReal) (l' : (⟨2, ![n', K]⟩ : Shape).Idx → EReal)
    (w w' : (⟨2, ![K, c]⟩ : Shape).Idx → EReal) (a : Fin n) (a' : Fin n') (v : Fin c)
    (hrow : ∀ q : Fin K, l (ix2 a q) = l' (ix2 a' q)) (hcol : ∀ q : Fin K, w (ix2 q v) = w' (ix2 q v)) :
    mm l w (ix2 a v) = mm l' w' (ix2 a' v) := by
  show ∑ q : Fin K, l (ix2 a q) * w (ix2 q v) = ∑ q : Fin K, l' (ix2 a' q) * w' (ix2 q v)
  simp only [hrow, hcol]

/-- The matrix unit's product into a zero accumulator is `mm`, whatever the operands' float formats. -/
theorem matmul_zero_eq {d : DotDims ⟨2, ![n, K]⟩ ⟨2, ![K, c]⟩ ⟨2, ![n, c]⟩} {φ₁ φ₂ : FTy} (h : RowsCols d)
    (prec : Option ContractPrecision) (l : FVec Ideal ⟨2, ![n, K]⟩ φ₁) (w : FVec Ideal ⟨2, ![K, c]⟩ φ₂) :
    matmul (F := Ideal) d prec l w (constant ⟨2, ![n, c]⟩ .f32 0x00000000#32) = mm l w :=
  funext fun j => h.matmul_zero_apply prec l w j

/-- The host's dot_general is `mm`. -/
theorem dotGeneral_eq {d : DotDims ⟨2, ![n, K]⟩ ⟨2, ![K, c]⟩ ⟨2, ![n, c]⟩} {φ₁ φ₂ : FTy} (h : RowsCols d)
    (prec : Option ContractPrecision) (l : FVec Ideal ⟨2, ![n, K]⟩ φ₁) (w : FVec Ideal ⟨2, ![K, c]⟩ φ₂) :
    Host.dotGeneral (F := Ideal) d prec l w = mm l w :=
  funext fun j => h.dotGeneral_apply prec l w j

/-- A one-row array broadcast over n rows and added is `addRow`. -/
theorem addf_broadcastTo_eq (g : FVec Ideal ⟨2, ![n, c]⟩ .f32) (b : FVec Ideal ⟨2, ![1, c]⟩ .f32)
    (h : (⟨2, ![1, c]⟩ : Shape).Broadcasts ⟨2, ![n, c]⟩) :
    addf g (broadcastTo ⟨2, ![n, c]⟩ b h) = addRow g b := by
  funext j
  obtain ⟨p, v, rfl⟩ : ∃ (p : Fin n) (v : Fin c), j = ix2 p v := ⟨j 0, j 1, eq_ix2 j⟩
  show g (ix2 p v) + broadcastTo ⟨2, ![n, c]⟩ b h (ix2 p v) = g (ix2 p v) + b (ix2 (0 : Fin 1) v)
  rw [broadcastTo_1b_ab_apply]

/-- A maximum with the splat float word zero is `relu`. -/
theorem maximumf_broadcast_eq (g : FVec Ideal ⟨2, ![n, c]⟩ .f32) :
    maximumf g (broadcast ⟨2, ![n, c]⟩ (Scalar.ofBits (F := Ideal) .f32 0x00000000#32)) = relu g := rfl

/-- The host's form of the bias add: a one-row array broadcast in place over n rows (its column axis sent to the
    column axis) and added is `addRow`. -/
theorem addf_broadcastInDim_eq (g : FVec Ideal ⟨2, ![n, c]⟩ .f32) (b : FVec Ideal ⟨2, ![1, c]⟩ .f32)
    (dims : Fin (⟨2, ![1, c]⟩ : Shape).rank → Fin (⟨2, ![n, c]⟩ : Shape).rank)
    (h : (⟨2, ![1, c]⟩ : Shape).BroadcastsInDim ⟨2, ![n, c]⟩ dims) (hd : dims 1 = 1) :
    addf g (broadcastInDim ⟨2, ![n, c]⟩ dims h b) = addRow g b := by
  funext j
  obtain ⟨p, v, rfl⟩ : ∃ (p : Fin n) (v : Fin c), j = ix2 p v := ⟨j 0, j 1, eq_ix2 j⟩
  show g (ix2 p v) + broadcastInDim ⟨2, ![n, c]⟩ dims h b (ix2 p v) = g (ix2 p v) + b (ix2 (0 : Fin 1) v)
  rw [broadcastInDim_apply dims h b (ix2 p v) (ix2 (0 : Fin 1) v) (fun a => by
    match a with
    | ⟨0, _⟩ => show 0 = if (1 : Nat) = 1 then 0 else ((ix2 p v) (dims ⟨0, _⟩)).val; rw [if_pos rfl]
    | ⟨1, _⟩ =>
      show v.val = if c = 1 then 0 else ((ix2 p v) (dims 1)).val
      rw [hd]
      show v.val = if c = 1 then 0 else v.val
      split
      · have := v.isLt; omega
      · rfl)]

/-- The host's form of the clamp: a maximum with the scalar float word zero broadcast to every entry is `relu`. -/
theorem maximumf_broadcastInDim_eq (g : FVec Ideal ⟨2, ![n, c]⟩ .f32)
    (dims : Fin (⟨0, ![]⟩ : Shape).rank → Fin (⟨2, ![n, c]⟩ : Shape).rank)
    (h : (⟨0, ![]⟩ : Shape).BroadcastsInDim ⟨2, ![n, c]⟩ dims) :
    maximumf g (broadcastInDim ⟨2, ![n, c]⟩ dims h (constant (F := Ideal) ⟨0, ![]⟩ .f32 0x00000000#32)) = relu g := by
  funext j
  show max (g j) (broadcastInDim ⟨2, ![n, c]⟩ dims h (constant (F := Ideal) ⟨0, ![]⟩ .f32 0x00000000#32) j) = max (g j) (Ideal.ofBits .f32 0x00000000#32)
  rw [broadcastInDim_apply dims h _ j ix0 (fun a => a.elim0)]
  rfl

/-- A vector recast as a one-row array is the vector broadcast in place along the columns of a one-row array. -/
theorem shapeCast_row_eq {α : Type} {a : Nat} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply, broadcastInDim_apply _ h' x (ix2 u i) (ix1 i) (fun b => by
    match b with
    | ⟨0, _⟩ =>
      show i.val = if a = 1 then 0 else i.val
      split
      · have := i.isLt; omega
      · rfl)]

end Cert.Spec

end
-- ==== Proof.Region0.lean ====
/-
  The first kernel region: x · W_gcn, ten blocks of 5000 rows.

  At each grid point t the body stores the product of the point's block of x (rows 5000·t … 5000·t + 4999, all 128
  columns) with the whole of W_gcn. An entry of a product reads the left operand in its own row only, so that block of
  rows of the product IS the product of the block; the ten blocks tile the 50000 rows, so after the region the result
  array holds the whole product `mm x W_gcn` of the arrays as the region finds them.
-/
import proofs.«123498_j60842506715481_1_alg».proof.Proof.Gen.KernelIdeal.Frame
import proofs.«123498_j60842506715481_1_alg».proof.Proof.Spec
import Idealize.ShloMosaic.Lib.Pipeline.Value

set_option maxRecDepth 16384

noncomputable section

namespace Cert.KernelIdeal.Region0

open Cert.KernelIdeal Cert.KernelIdeal.Gen Cert.Spec Cert.Lib.DotRowsCols
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product contracts the left operand's columns with the right operand's rows. -/
theorem rowsCols : RowsCols dot_S5000x128_S128x128_S5000x128_1_0_0_1_n_n := ⟨rfl, rfl, rfl, rfl, rfl, rfl⟩

/-- What the body stores is the product of its two loaded blocks (the change of float format is the identity). -/
theorem stored_eq (x0 : Vec Ideal S5000x128 .f32) (x1 : Vec Ideal S128x128 .f32) : k0_pay1 (F := Ideal) x0 x1 = mm x0 x1 := by
  unfold k0_pay1
  dsimp only
  rw [matmul_zero_eq rowsCols]
  rfl

/-- The index maps over the grid: x's block and the result's block are at row-block t, column-block 0; W_gcn's at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [stored_eq]
  obtain ⟨e00, e01, e10, e11, e20, e21⟩ := index_facts t
  funext y
  obtain ⟨p, v, rfl⟩ : ∃ (p : Fin 5000) (v : Fin 128), y = ix2 p v := ⟨y 0, y 1, eq_ix2 y⟩
  have ht : t.val < 10 := lt_of_lt_of_eq t.isLt N_0
  have hp := p.isLt
  have hv := v.isLt
  -- the entry's place in the whole array: row 5000·t + p, column v
  have hemb : ((cfg0.win 2).blk t).view.emb (ix2 p v) = ix2 (⟨t.val * 5000 + p.val, by omega⟩ : Fin 50000) v := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * v.val = v.val; omega
  show mm (iblk0 V c 0 t) (iblk0 V c 1 t) (ix2 p v) = mm (V c main_arg0) (V c main_arg2) (((cfg0.win 2).blk t).view.emb (ix2 p v))
  rw [hemb]
  refine mm_congr _ _ _ _ p _ v (fun q => ?_) (fun q => ?_)
  · show V c main_arg0 (((cfg0.win 0).blk t).view.emb (ix2 p q)) = V c main_arg0 (ix2 (⟨t.val * 5000 + p.val, by omega⟩ : Fin 50000) q)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * q.val = q.val; omega
  · show V c main_arg2 (((cfg0.win 1).blk t).view.emb (ix2 q v)) = V c main_arg2 (ix2 q v)
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 128 + 1 * v.val = v.val; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row is in the block of the point its number divided by 5000 names. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_2 _, ?_⟩
  obtain ⟨-, -, -, -, e20, e21⟩ := index_facts ⟨(i 0).val / 5000, hN⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e21]; omega

/-- After the region the result array holds the whole product of the arrays as the region finds them. -/
theorem arr_eq (c : Dev nD) : (dat0 V c).arrAt 2 cfg0.N = mm (V c main_arg0) (V c main_arg2) :=
  (dat0 V c).arrAt_eq_of_cover 2 (mm (V c main_arg0) (V c main_arg2)) (fun t _ => flushed_eq V c t) (cover)

end Cert.KernelIdeal.Region0

end
-- ==== Proof.Region1.lean ====
/-
  The second kernel region: the perceptron head, ten blocks of 5000 rows.

  At each grid point t the body loads the point's block of the propagated features g (rows 5000·t … 5000·t + 4999) and
  the whole of the two bias rows, the two weight arrays and the output bias, and stores
  relu(relu(g + r1) · W1 + r2) · W2 + r3  of them: `head` of the six loaded blocks. An entry of `head` reads g in its own
  row only, so block t of `head` of the whole arrays is `head` of block t; the ten blocks tile the 50000 rows, so after
  the region the result array holds `head` of the arrays as the region finds them.
-/
import proofs.«123498_j60842506715481_1_alg».proof.Proof.Gen.KernelIdeal.Frame
import proofs.«123498_j60842506715481_1_alg».proof.Proof.Spec
import Idealize.ShloMosaic.Lib.Pipeline.Value

set_option maxRecDepth 16384

noncomputable section

namespace Cert.KernelIdeal.Region1

open Cert.KernelIdeal Cert.KernelIdeal.Gen Cert.Spec Cert.Lib.DotRowsCols
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Both of the body's products contract the left operand's columns with the right operand's rows. -/
theorem rowsCols_hidden : RowsCols dot_S5000x128_S128x128_S5000x128_1_0_0_1_n_n := ⟨rfl, rfl, rfl, rfl, rfl, rfl⟩
theorem rowsCols_out : RowsCols dot_S5000x128_S128x1_S5000x1_1_0_0_1_n_n := ⟨rfl, rfl, rfl, rfl, rfl, rfl⟩

/-- What the body stores is `head` of its six loaded blocks: the casts between equal shapes and the changes of float
    format are the identity, a bias row broadcast over the rows and added is `addRow`, a maximum with a splat zero is
    `relu`, and each product into a zero accumulator is `mm`. -/
theorem stored_eq (x0 : Vec Ideal S5000x128 .f32) (x1 : Vec Ideal S1x128 .f32) (x2 : Vec Ideal S128x128 .f32)
    (x3 : Vec Ideal S1x128 .f32) (x4 : Vec Ideal S128x1 .f32) (x5 : Vec Ideal S1x1 .f32) :
    k1_pay1 (F := Ideal) x0 x1 x2 x3 x4 x5 = head x0 x1 x2 x3 x4 x5 := by
  unfold k1_pay1
  dsimp only
  simp only [shapeCast_self, addf_broadcastTo_eq, maximumf_broadcast_eq, matmul_zero_eq rowsCols_hidden, matmul_zero_eq rowsCols_out]
  rfl

/-- The index maps over the grid: the features' block and the result's block are at row-block t, column-block 0; every
    other operand's block is at the origin. -/
theorem index_facts : ∀ t : Fin cfg1.N, win1_0.index t (0 : Fin 2) = t.val ∧ win1_0.index t (1 : Fin 2) = 0
    ∧ (∀ a : Fin 2, win1_1.index t a = 0) ∧ (∀ a : Fin 2, win1_2.index t a = 0) ∧ (∀ a : Fin 2, win1_3.index t a = 0)
    ∧ (∀ a : Fin 2, win1_4.index t a = 0) ∧ (∀ a : Fin 2, win1_5.index t a = 0)
    ∧ win1_6.index t (0 : Fin 2) = t.val ∧ win1_6.index t (1 : Fin 2) = 0 :=
  (by decide +kernel : ∀ t : Fin grid1.N, _)

/-- Window 1's block at every point is its whole array. -/
theorem whole_1 (c : Dev nD) (t : Fin cfg1.N) : iblk1 V c 1 t = V c main_v44 := by
  obtain ⟨-, -, e1, e2, e3, e4, e5, -, -⟩ := index_facts t
  funext y
  obtain ⟨u, j, rfl⟩ : ∃ (u : Fin 1) (j : Fin 128), y = ix2 u j := ⟨y 0, y 1, eq_ix2 y⟩
  show V c main_v44 (((cfg1.win 1).blk t).view.emb (ix2 u j)) = V c main_v44 (ix2 u j)
  refine congrArg (V c main_v44) (funext fun a => Fin.ext ?_)
  match a with
  | ⟨0, _⟩ => show win1_1.index t (0 : Fin 2) * 1 + 1 * u.val = u.val; have := e1 (0 : Fin 2); omega
  | ⟨1, _⟩ => show win1_1.index t (1 : Fin 2) * 128 + 1 * j.val = j.val; have := e1 (1 : Fin 2); omega

/-- Window 2's block at every point is its whole array. -/
theorem whole_2 (c : Dev nD) (t : Fin cfg1.N) : iblk1 V c 2 t = V c main_arg4 := by
  obtain ⟨-, -, e1, e2, e3, e4, e5, -, -⟩ := index_facts t
  funext y
  obtain ⟨u, j, rfl⟩ : ∃ (u : Fin 128) (j : Fin 128), y = ix2 u j := ⟨y 0, y 1, eq_ix2 y⟩
  show V c main_arg4 (((cfg1.win 2).blk t).view.emb (ix2 u j)) = V c main_arg4 (ix2 u j)
  refine congrArg (V c main_arg4) (funext fun a => Fin.ext ?_)
  match a with
  | ⟨0, _⟩ => show win1_2.index t (0 : Fin 2) * 128 + 1 * u.val = u.val; have := e2 (0 : Fin 2); omega
  | ⟨1, _⟩ => show win1_2.index t (1 : Fin 2) * 128 + 1 * j.val = j.val; have := e2 (1 : Fin 2); omega

/-- Window 3's block at every point is its whole array. -/
theorem whole_3 (c : Dev nD) (t : Fin cfg1.N) : iblk1 V c 3 t = V c main_v45 := by
  obtain ⟨-, -, e1, e2, e3, e4, e5, -, -⟩ := index_facts t
  funext y
  obtain ⟨u, j, rfl⟩ : ∃ (u : Fin 1) (j : Fin 128), y = ix2 u j := ⟨y 0, y 1, eq_ix2 y⟩
  show V c main_v45 (((cfg1.win 3).blk t).view.emb (ix2 u j)) = V c main_v45 (ix2 u j)
  refine congrArg (V c main_v45) (funext fun a => Fin.ext ?_)
  match a with
  | ⟨0, _⟩ => show win1_3.index t (0 : Fin 2) * 1 + 1 * u.val = u.val; have := e3 (0 : Fin 2); omega
  | ⟨1, _⟩ => show win1_3.index t (1 : Fin 2) * 128 + 1 * j.val = j.val; have := e3 (1 : Fin 2); omega

/-- Window 4's block at every point is its whole array. -/
theorem whole_4 (c : Dev nD) (t : Fin cfg1.N) : iblk1 V c 4 t = V c main_arg6 := by
  obtain ⟨-, -, e1, e2, e3, e4, e5, -, -⟩ := index_facts t
  funext y
  obtain ⟨u, j, rfl⟩ : ∃ (u : Fin 128) (j : Fin 1), y = ix2 u j := ⟨y 0, y 1, eq_ix2 y⟩
  show V c main_arg6 (((cfg1.win 4).blk t).view.emb (ix2 u j)) = V c main_arg6 (ix2 u j)
  refine congrArg (V c main_arg6) (funext fun a => Fin.ext ?_)
  match a with
  | ⟨0, _⟩ => show win1_4.index t (0 : Fin 2) * 128 + 1 * u.val = u.val; have := e4 (0 : Fin 2); omega
  | ⟨1, _⟩ => show win1_4.index t (1 : Fin 2) * 1 + 1 * j.val = j.val; have := e4 (1 : Fin 2); omega

/-- Window 5's block at every point is its whole array. -/
theorem whole_5 (c : Dev nD) (t : Fin cfg1.N) : iblk1 V c 5 t = V c main_v46 := by
  obtain ⟨-, -, e1, e2, e3, e4, e5, -, -⟩ := index_facts t
  funext y
  obtain ⟨u, j, rfl⟩ : ∃ (u : Fin 1) (j : Fin 1), y = ix2 u j := ⟨y 0, y 1, eq_ix2 y⟩
  show V c main_v46 (((cfg1.win 5).blk t).view.emb (ix2 u j)) = V c main_v46 (ix2 u j)
  refine congrArg (V c main_v46) (funext fun a => Fin.ext ?_)
  match a with
  | ⟨0, _⟩ => show win1_5.index t (0 : Fin 2) * 1 + 1 * u.val = u.val; have := e5 (0 : Fin 2); omega
  | ⟨1, _⟩ => show win1_5.index t (1 : Fin 2) * 1 + 1 * j.val = j.val; have := e5 (1 : Fin 2); omega

/-- What point t writes back is block t of `head` of the whole arrays. -/
theorem flushed_eq (c : Dev nD) (t : Fin cfg1.N) :
    (dat1 V c).flushed 6 t = ((cfg1.win 6).blk t).view.read (Elt Ideal)
      (head (V c main_v43) (V c main_v44) (V c main_arg4) (V c main_v45) (V c main_arg6) (V c main_v46)) := by
  show (cfg1.win 6).cut (grid1.coords t) ((dat1 V c).after 6 t) = _
  rw [after1_6]
  unfold out1_6
  rw [View.canon_unit_zero origin]
  simp only [View.ld_unit_zero (S := S5000x128) origin, View.ld_unit_zero (S := S1x128) origin, View.ld_unit_zero (S := S128x128) origin,
    View.ld_unit_zero (S := S128x1) origin, View.ld_unit_zero (S := S1x1) origin]
  rw [stored_eq, whole_1, whole_2, whole_3, whole_4, whole_5]
  obtain ⟨e00, e01, -, -, -, -, -, e60, e61⟩ := index_facts t
  funext y
  obtain ⟨p, v, rfl⟩ : ∃ (p : Fin 5000) (v : Fin 1), y = ix2 p v := ⟨y 0, y 1, eq_ix2 y⟩
  have ht : t.val < 10 := lt_of_lt_of_eq t.isLt N_1
  have hp := p.isLt
  have hv := v.isLt
  -- the entry's place in the whole array: row 5000·t + p, column v
  have hemb : ((cfg1.win 6).blk t).view.emb (ix2 p v) = ix2 (⟨t.val * 5000 + p.val, by omega⟩ : Fin 50000) v := by
    funext a; apply Fin.ext
    match a with
    | ⟨0, _⟩ => show win1_6.index t (0 : Fin 2) * 5000 + 1 * p.val = t.val * 5000 + p.val; omega
    | ⟨1, _⟩ => show win1_6.index t (1 : Fin 2) * 1 + 1 * v.val = v.val; omega
  show head (iblk1 V c 0 t) (V c main_v44) (V c main_arg4) (V c main_v45) (V c main_arg6) (V c main_v46) (ix2 p v)
    = head (V c main_v43) (V c main_v44) (V c main_arg4) (V c main_v45) (V c main_arg6) (V c main_v46) (((cfg1.win 6).blk t).view.emb (ix2 p v))
  rw [hemb]
  refine head_row _ _ _ _ _ _ _ p _ v v (fun q => ?_)
  show V c main_v43 (((cfg1.win 0).blk t).view.emb (ix2 p q)) = V c main_v43 (ix2 (⟨t.val * 5000 + p.val, by omega⟩ : Fin 50000) q)
  refine congrArg (V c main_v43) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- An index of the result array is in point t's block iff each coordinate is in the block's range on its axis. -/
theorem mem_blk (t : Fin cfg1.N) (i : S50000x1.Idx) :
    i ∈ ((cfg1.win 6).blk t).view.set ↔ ∀ a : Fin 2, win1_6.index t a * S5000x1.size a ≤ (i a).val ∧ (i a).val < win1_6.index t a * S5000x1.size a + S5000x1.size a := by
  show i ∈ ((View.whole main_v47).slice (win1_6.rect t)).set ↔ _
  rw [View.set_slice_whole, Rect.mem_set_unit]
  exact Iff.rfl

/-- Every row is in the block of the point its number divided by 5000 names. -/
theorem cover (i : S50000x1.Idx) : ∃ t : Fin cfg1.N, (cfg1.win 6).flush t = true ∧ i ∈ ((cfg1.win 6).blk t).view.set := by
  have hi0 : (i 0).val < 50000 := (i 0).isLt
  have hi1 : (i 1).val < 1 := (i 1).isLt
  have hN : (i 0).val / 5000 < cfg1.N := by show _ < grid1.N; rw [N_1]; omega
  refine ⟨⟨(i 0).val / 5000, hN⟩, flush1_6 _, ?_⟩
  obtain ⟨-, -, -, -, -, -, -, e60, e61⟩ := index_facts ⟨(i 0).val / 5000, hN⟩
  rw [mem_blk]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hN⟩ (1 : Fin 2) * 1 ≤ (i 1).val ∧ (i 1).val < win1_6.index ⟨(i 0).val / 5000, hN⟩ (1 : Fin 2) * 1 + 1
    rw [e61]; omega

/-- After the region the result array holds `head` of the arrays as the region finds them. -/
theorem arr_eq (c : Dev nD) : (dat1 V c).arrAt 6 cfg1.N
    = head (V c main_v43) (V c main_v44) (V c main_arg4) (V c main_v45) (V c main_arg6) (V c main_v46) :=
  (dat1 V c).arrAt_eq_of_cover 6 (head (V c main_v43) (V c main_v44) (V c main_arg4) (V c main_v45) (V c main_arg6) (V c main_v46))
    (fun t _ => flushed_eq V c t) (cover)

end Cert.KernelIdeal.Region1

end
-- ==== Proof.Propagate.lean ====
/-
  The graph propagation both programs apply to the transformed features h = x · W_gcn: self-loops appended to the
  edge list, each node's degree counted by a scatter of ones, the inverse square root of the degree (zero where the
  degree is not positive), each edge's message the source's row of h scaled by the product of its two ends'
  coefficients, and the messages scatter-added at the destinations. It is carried here as ONE function `prop h E` of
  the transformed features h and the edge list E and is never opened: the two programs apply the same host operations,
  so all the certificate needs of it is that both sides feed it the same two arrays.
-/
import proofs.«123498_j60842506715481_1_alg».proof.Proof.RefRead

noncomputable section

namespace Cert.ReferenceIdeal.Propagate

open Cert.ReferenceIdeal Cert.ReferenceIdeal.Gen Cert.ReferenceIdeal.ReadP Idealize.ShloMosaic

variable {F : FTy → Type} [FloatOps F]

/-- The propagation of the transformed features h over the edges E: the messages gathered from h's rows, scaled by the
    edges' coefficients, scatter-added into a zero array at the destinations. -/
def prop (h : (⟨S50000x128, .f32⟩ : BufTy).Contents (Elt F)) (E : (⟨S2x800000, .i32⟩ : BufTy).Contents (Elt F)) :
    (⟨S50000x128, .f32⟩ : BufTy).Contents (Elt F) :=
  Host.scatterAdd scatter_S50000x128_S850000x1_S850000x128_1_0_0_1 (val_main_v41 (F := F)) (val_main_v42 (F := F) E)
    (mulf (Host.gather gather_S50000x128_S850000x1_S850000x128_1_0_n_n_0_1_1128 h (val_main_v36 (F := F) E)) (val_main_v39 (F := F) E))

/-- The reference's propagated features are `prop` of its own product x · W_gcn. -/
theorem val_main_v43_eq (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = prop (val_main_v7 (F := F) x0 x2) x1 := by
  unfold val_main_v43 val_main_v40 val_main_v37 prop
  rfl

end Cert.ReferenceIdeal.Propagate

end
-- ==== Proof.HostMid.lean ====
/-
  The host operations between the two kernel regions, read at the six arrays the second region takes.

  From any buffer contents W at the first region's exit, after the three stretches of host operations:
  the propagated features are `prop` of the first region's result and the edge list (the same operations, in the same
  order, as the reference applies to its own product); each of the three bias vectors is recast as a one-row array;
  the two weight arrays are untouched.
-/
import proofs.«123498_j60842506715481_1_alg».proof.Proof.Gen.KernelIdeal.Launch
import proofs.«123498_j60842506715481_1_alg».proof.Proof.Propagate
import Idealize.ShloMosaic.Lib.StableHlo.Run

noncomputable section

namespace Cert.KernelIdeal.Mid

open Cert.KernelIdeal Cert.KernelIdeal.Gen Idealize.ShloMosaic Idealize.ShloMosaic.TcCoe Idealize.ShloMosaic.StableHlo

variable {F : FTy → Type} [FloatOps F]

/-- The buffer contents after the three host stretches, from contents W. -/
abbrev afterMid (W : Valuation τ sig (Elt F)) : Valuation τ sig (Elt F) :=
  StableHlo.after hostOps1_2 (StableHlo.after hostOps1_1 (StableHlo.after hostOps1 W))

/-- The first bias vector recast as a one-row array. -/
theorem at_v44 (W : Valuation τ sig (Elt F)) :
    afterMid W (Proc.devRef .tc main_v44) = shapeCast S1x128 (W (Proc.devRef .tc main_arg3)) shapeCasts_S128_S1x128 := by
  simp only [afterMid, hostOps1, hostOps1_1, hostOps1_2]
  after_results_simp <;> (try simp only [TRef.ofBuf, TRef.toBuf, cast_eq]) <;> rfl

/-- The second bias vector recast as a one-row array. -/
theorem at_v45 (W : Valuation τ sig (Elt F)) :
    afterMid W (Proc.devRef .tc main_v45) = shapeCast S1x128 (W (Proc.devRef .tc main_arg5)) shapeCasts_S128_S1x128 := by
  simp only [afterMid, hostOps1, hostOps1_1, hostOps1_2]
  after_results_simp <;> (try simp only [TRef.ofBuf, TRef.toBuf, cast_eq]) <;> rfl

/-- The output bias recast as a one-row, one-column array. -/
theorem at_v46 (W : Valuation τ sig (Elt F)) :
    afterMid W (Proc.devRef .tc main_v46) = shapeCast S1x1 (W (Proc.devRef .tc main_arg7)) shapeCasts_S1_S1x1 := by
  simp only [afterMid, hostOps1, hostOps1_1, hostOps1_2]
  after_results_simp <;> (try simp only [TRef.ofBuf, TRef.toBuf, cast_eq]) <;> rfl

/-- The hidden layer's weights are untouched. -/
theorem at_arg4 (W : Valuation τ sig (Elt F)) :
    afterMid W (Proc.devRef .tc main_arg4) = W (Proc.devRef .tc main_arg4) := by
  simp only [afterMid, hostOps1, hostOps1_1, hostOps1_2]
  after_results_simp <;> (try simp only [TRef.ofBuf, TRef.toBuf, cast_eq]) <;> rfl

/-- The output layer's weights are untouched. -/
theorem at_arg6 (W : Valuation τ sig (Elt F)) :
    afterMid W (Proc.devRef .tc main_arg6) = W (Proc.devRef .tc main_arg6) := by
  simp only [afterMid, hostOps1, hostOps1_1, hostOps1_2]
  after_results_simp <;> (try simp only [TRef.ofBuf, TRef.toBuf, cast_eq]) <;> rfl

set_option maxRecDepth 8192 in
set_option maxHeartbeats 4000000 in
/-- The propagated features are `prop` of the first region's result array and the edge list. -/
theorem at_v43 (W : Valuation τ sig (Elt F)) :
    afterMid W (Proc.devRef .tc main_v43)
      = Cert.ReferenceIdeal.Propagate.prop (F := F) (W (Proc.devRef .tc main_v0)) (W (Proc.devRef .tc main_arg1)) := by
  simp only [afterMid, hostOps1, hostOps1_1, hostOps1_2]
  after_results_simp <;> (try simp only [TRef.ofBuf, TRef.toBuf, cast_eq]) <;> rfl

end Cert.KernelIdeal.Mid

end
-- ==== Proof.KernelValue.lean ====
/-
  The kernel's result as one function of the argument arrays.

  The last boundary's contents at the result buffer are what the second region leaves: `head` of the six arrays that
  region finds. Of those, the propagated features are `prop` of what the first region left — the product x · W_gcn of
  the launch contents — and of the edge list; the three bias rows are the bias vectors recast; the weight arrays are
  as launched (no host operation and no region writes an argument).
-/
import proofs.«123498_j60842506715481_1_alg».proof.Proof.Gen.KernelIdeal.Frame
import proofs.«123498_j60842506715481_1_alg».proof.Proof.Region0
import proofs.«123498_j60842506715481_1_alg».proof.Proof.Region1
import proofs.«123498_j60842506715481_1_alg».proof.Proof.HostMid

set_option maxRecDepth 16384

noncomputable section

namespace Cert.KernelIdeal.KernelValue

open Cert.KernelIdeal Cert.KernelIdeal.Gen Cert.Spec Cert.ReferenceIdeal.Propagate
open Idealize.ShloMosaic Idealize.ShloMosaic.TcCoe Idealize.SL.Sem

variable (m : (ℓ : Loc nD τ sig) → Buf (Elt Ideal) ℓ) (ρ : Dev nD → PrngReg)

/-- An argument array is as launched when the first region ends: the region writes only its result array. -/
theorem W1_arg1 (c : Dev nD) : W1 m ρ c (Proc.devRef .tc main_arg1) = m ((c : Thread nD τ).loc main_arg1) :=
  (W1_of_ne m ρ c main_arg1 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl
theorem W1_arg6 (c : Dev nD) : W1 m ρ c (Proc.devRef .tc main_arg6) = m ((c : Thread nD τ).loc main_arg6) :=
  (W1_of_ne m ρ c main_arg6 (by decide)).trans rfl
theorem W1_arg7 (c : Dev nD) : W1 m ρ c (Proc.devRef .tc main_arg7) = m ((c : Thread nD τ).loc main_arg7) :=
  (W1_of_ne m ρ c main_arg7 (by decide)).trans rfl

/-- When the first region ends its result array holds the product of the launch contents of x and W_gcn. -/
theorem W1_v0 (c : Dev nD) : W1 m ρ c (Proc.devRef .tc main_v0)
    = mm (m ((c : Thread nD τ).loc main_arg0)) (m ((c : Thread nD τ).loc main_arg2)) :=
  (W1_arr m ρ c 2).trans (Region0.arr_eq (V0 m ρ) c)

/-- The result buffer at the last boundary: `head` of the propagated product and the other arguments. -/
theorem result_eq (c : Dev nD) : W5 m ρ c (Proc.devRef .tc main_v47)
    = head (prop (F := Ideal) (mm (m ((c : Thread nD τ).loc main_arg0)) (m ((c : Thread nD τ).loc main_arg2))) (m ((c : Thread nD τ).loc main_arg1)))
        (shapeCast S1x128 (m ((c : Thread nD τ).loc main_arg3)) shapeCasts_S128_S1x128) (m ((c : Thread nD τ).loc main_arg4))
        (shapeCast S1x128 (m ((c : Thread nD τ).loc main_arg5)) shapeCasts_S128_S1x128) (m ((c : Thread nD τ).loc main_arg6))
        (shapeCast S1x1 (m ((c : Thread nD τ).loc main_arg7)) shapeCasts_S1_S1x1) := by
  refine (W5_arr m ρ c 6).trans ?_
  rw [Region1.arr_eq]
  show head (Mid.afterMid (W1 m ρ c) (Proc.devRef .tc main_v43)) (Mid.afterMid (W1 m ρ c) (Proc.devRef .tc main_v44))
      (Mid.afterMid (W1 m ρ c) (Proc.devRef .tc main_arg4)) (Mid.afterMid (W1 m ρ c) (Proc.devRef .tc main_v45))
      (Mid.afterMid (W1 m ρ c) (Proc.devRef .tc main_arg6)) (Mid.afterMid (W1 m ρ c) (Proc.devRef .tc main_v46)) = _
  rw [Mid.at_v43, Mid.at_v44, Mid.at_arg4, Mid.at_v45, Mid.at_arg6, Mid.at_v46,
    W1_v0, W1_arg1, W1_arg3, W1_arg4, W1_arg5, W1_arg6, W1_arg7]

end Cert.KernelIdeal.KernelValue

end
-- ==== Proof.RefValue.lean ====
/-
  The reference's result, as the one function of the arguments the kernel's result is.

  The reference computes h = x · W_gcn by a dot_general, propagates it over the edges (`prop`), adds the first bias
  row, clamps at zero, multiplies by W1, adds the second bias row, clamps, multiplies by W2 and adds the output bias:
  `head (prop (mm x W_gcn) E) r1 W1 r2 W2 r3`, the bias rows the bias vectors broadcast in place to one row. Each
  dot_general is `mm`, each broadcast-and-add `addRow`, each maximum with a broadcast zero `relu`.
-/
import proofs.«123498_j60842506715481_1_alg».proof.Proof.RefRead
import proofs.«123498_j60842506715481_1_alg».proof.Proof.Propagate
import proofs.«123498_j60842506715481_1_alg».proof.Proof.Spec

noncomputable section

namespace Cert.ReferenceIdeal.RefValue

open Cert.ReferenceIdeal Cert.ReferenceIdeal.Gen Cert.ReferenceIdeal.ReadP Cert.ReferenceIdeal.Propagate
open Cert.Spec Cert.Lib.DotRowsCols Idealize.ShloMosaic

/-- Both 128-column products contract the left operand's columns with the right operand's rows. -/
theorem rowsCols_wide : RowsCols dot_S50000x128_S128x128_S50000x128_1_0_0_1_n_n := ⟨rfl, rfl, rfl, rfl, rfl, rfl⟩
/-- So does the one-column product. -/
theorem rowsCols_out : RowsCols dot_S50000x128_S128x1_S50000x1_1_0_0_1_n_n := ⟨rfl, rfl, rfl, rfl, rfl, rfl⟩

/-- A bias row broadcast over the 50000 rows of 128 entries and added. -/
theorem addRow_wide (g : FVec Ideal S50000x128 .f32) (b : FVec Ideal S1x128 .f32) :
    addf g (broadcastInDim S50000x128 ![0, 1] bcast_S1x128_S50000x128_0_1 b) = addRow g b :=
  addf_broadcastInDim_eq g b _ bcast_S1x128_S50000x128_0_1 rfl

/-- The output bias broadcast over the 50000 rows of one entry and added. -/
theorem addRow_out (g : FVec Ideal S50000x1 .f32) (b : FVec Ideal S1x1 .f32) :
    addf g (broadcastInDim S50000x1 ![0, 1] bcast_S1x1_S50000x1_0_1 b) = addRow g b :=
  addf_broadcastInDim_eq g b _ bcast_S1x1_S50000x1_0_1 rfl

/-- A maximum with the scalar zero broadcast to every entry. -/
theorem relu_wide (g : FVec Ideal S50000x128 .f32) :
    maximumf g (broadcastInDim S50000x128 ![] bcast_S_S50000x128 (constant (F := Ideal) S_ .f32 0x00000000#32)) = relu g :=
  maximumf_broadcastInDim_eq g _ bcast_S_S50000x128

/-- The reference's result is `head` of the propagated product and the other arguments. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v56 (F := Ideal) x0 x1 x2 x3 x4 x5 x6 x7
      = head (prop (F := Ideal) (mm x0 x2) x1) (val_main_v44 (F := Ideal) x3) x4 (val_main_v49 (F := Ideal) x5) x6 (val_main_v54 (F := Ideal) x7) := by
  unfold val_main_v56 val_main_v55 val_main_v53 val_main_v52 val_main_call2_v0 val_main_call2_cst val_main_v51 val_main_v50
    val_main_v48 val_main_v47 val_main_call1_v0 val_main_call1_cst val_main_v46 val_main_v45
  rw [val_main_v43_eq]
  unfold val_main_v7
  simp only [dotGeneral_eq rowsCols_wide, dotGeneral_eq rowsCols_out]
  rw [addRow_out, addRow_wide, addRow_wide, relu_wide, relu_wide]
  rfl

end Cert.ReferenceIdeal.RefValue

end
-- ==== Proof.lean ====
/-
  A graph-convolution layer and a two-layer perceptron head: the kernel against its jnp reference, over the extended reals.

  Both programs compute, for node features x, an edge list E, weights W_gcn, W1, W2 and biases b_gcn, b1, b2,

      relu(relu(P(x · W_gcn, E) + b_gcn) · W1 + b1) · W2 + b2 ,

  where P is the propagation of the transformed features over the graph (self-loops, symmetric degree normalisation,
  gather, scale, scatter-add). The kernel computes x · W_gcn in one region, ten blocks of 5000 rows at a time, applies P
  on the host with the very operations the reference uses, and computes the rest in a second region, again ten blocks of
  rows at a time; the reference computes everything on the host. At the ideal values a change of float format is the
  identity and both forms of matrix product are the plain sum over the shared axis, and a row of either product or of
  the head depends on the same row of its left operand only: so the blockwise results are the whole results, and the
  two programs' results are one function of the arguments, `head (prop (mm x W_gcn) E) …`. No algebraic law beyond that is
  used, and so the finiteness of the inputs is never opened.
-/
import proofs.«123498_j60842506715481_1_alg».proof.Defs
import proofs.«123498_j60842506715481_1_alg».proof.Proof.Gen.Kernel
import proofs.«123498_j60842506715481_1_alg».proof.Proof.Gen.Kernel.Skeleton
import proofs.«123498_j60842506715481_1_alg».proof.Proof.Gen.Kernel.Launch
import proofs.«123498_j60842506715481_1_alg».proof.Proof.Gen.Kernel.Points
import proofs.«123498_j60842506715481_1_alg».proof.Proof.Gen.Kernel.Frame
import proofs.«123498_j60842506715481_1_alg».proof.Proof.Gen.KernelIdeal
import proofs.«123498_j60842506715481_1_alg».proof.Proof.Gen.KernelIdeal.Skeleton
import proofs.«123498_j60842506715481_1_alg».proof.Proof.Gen.KernelIdeal.Launch
import proofs.«123498_j60842506715481_1_alg».proof.Proof.Gen.KernelIdeal.Points
import proofs.«123498_j60842506715481_1_alg».proof.Proof.Gen.KernelIdeal.Frame
import proofs.«123498_j60842506715481_1_alg».proof.Proof.Gen.ReferenceIdeal
import proofs.«123498_j60842506715481_1_alg».proof.Proof.Gen.Pre_finite_inputs
import proofs.«123498_j60842506715481_1_alg».proof.Proof.KernelRun
import proofs.«123498_j60842506715481_1_alg».proof.Proof.KernelValue
import proofs.«123498_j60842506715481_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the kernel read at the ideal values. -/
theorem frame_kernelIdeal [Cert.KernelIdeal.Facts] [Cert.Pre_finite_inputs.Facts] : Cert.frame_KernelIdeal :=
  fun m ρ _ => Cert.KernelIdeal.Gen.frame m ρ

/-- The reference is a line of host operations: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The bias rows: the kernel recasts each bias vector as a one-row array, the reference broadcasts it in place to one
    row; the two one-row arrays are equal, so the two results are `head` of the same six arrays. -/
theorem results_eq (g : (⟨2, ![50000, 128]⟩ : Shape).Idx → EReal) (b3 b5 : (⟨1, ![128]⟩ : Shape).Idx → EReal)
    (W1 : (⟨2, ![128, 128]⟩ : Shape).Idx → EReal) (W2 : (⟨2, ![128, 1]⟩ : Shape).Idx → EReal) (b7 : (⟨1, ![1]⟩ : Shape).Idx → EReal) :
    Cert.Spec.head g (Cert.ReferenceIdeal.ReadP.val_main_v44 (F := Ideal) b3) W1 (Cert.ReferenceIdeal.ReadP.val_main_v49 (F := Ideal) b5) W2
        (Cert.ReferenceIdeal.ReadP.val_main_v54 (F := Ideal) b7)
      = Cert.Spec.head g (shapeCast Cert.KernelIdeal.S1x128 b3 Cert.KernelIdeal.Gen.shapeCasts_S128_S1x128) W1
          (shapeCast Cert.KernelIdeal.S1x128 b5 Cert.KernelIdeal.Gen.shapeCasts_S128_S1x128) W2
          (shapeCast Cert.KernelIdeal.S1x1 b7 Cert.KernelIdeal.Gen.shapeCasts_S1_S1x1) := by
  unfold Cert.ReferenceIdeal.ReadP.val_main_v44 Cert.ReferenceIdeal.ReadP.val_main_v49 Cert.ReferenceIdeal.ReadP.val_main_v54
  rw [Cert.Spec.shapeCast_row_eq b3 Cert.KernelIdeal.Gen.shapeCasts_S128_S1x128 Cert.ReferenceIdeal.Gen.bcast_S128_S1x128_1,
    Cert.Spec.shapeCast_row_eq b5 Cert.KernelIdeal.Gen.shapeCasts_S128_S1x128 Cert.ReferenceIdeal.Gen.bcast_S128_S1x128_1,
    Cert.Spec.shapeCast_row_eq b7 Cert.KernelIdeal.Gen.shapeCasts_S1_S1x1 Cert.ReferenceIdeal.Gen.bcast_S1_S1x1_1]

/-- From memories that agree on the arguments both programs end with the result array at
    `head (prop (mm x W_gcn) E) …` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W5 m ρ c (Proc.devRef .tc Cert.KernelIdeal.main_v47),
    Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v56 m' c = Cert.KernelIdeal.Gen.W5 m ρ c (Proc.devRef .tc Cert.KernelIdeal.main_v47)
  obtain ⟨h0, h1, h2, h3, h4, h5, h6, h7⟩ := hagree c
  rw [Cert.ReferenceIdeal.ReadP.val_main_v56_eq, Cert.ReferenceIdeal.RefValue.result_eq, Cert.KernelIdeal.KernelValue.result_eq,
    h0, h1, h2, h3, h4, h5, h6, h7]
  exact results_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
